-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x64x4096 : Shape := ⟨3, ![32, 64, 4096]⟩
abbrev S_ : Shape := ⟨0, ![]⟩

class Facts : Prop where
  bcast_S_S32x64x4096 : S_.BroadcastsInDim S32x64x4096 (![] : Fin 0 → Fin S32x64x4096.rank)
  reducesTo_S32x64x4096_S_d0_1_2 : S32x64x4096.ReducesTo [0, 1, 2] S_
  h_S_ : 0 < S_.numel

variable [Facts]

def fn {F : FTy → Type} [FloatOps F] (main_arg0 : FVec F S32x64x4096 .f32) : IVec S_ 1 :=
  let main_v0 : FVec F S32x64x4096 .f32 := Host.absf main_arg0
  let main_cst : FVec F S_ .f32 := constant S_ .f32 0x7F800000#32
  let main_v1 : FVec F S32x64x4096 .f32 := broadcastInDim S32x64x4096 ![] bcast_S_S32x64x4096 main_cst
  let main_v2 : IVec S32x64x4096 1 := cmpf .olt main_v0 main_v1
  let main_c : IVec S_ 1 := constantI S_ 1 1#1
  let main_v3 : IVec S_ 1 := (fun x v => Host.reduce IntOp.andi x v reducesTo_S32x64x4096_S_d0_1_2 h_S_) main_v2 main_c
  main_v3
-- ==== Kernel.lean ====
abbrev S32x64x4096 : Shape := ⟨3, ![32, 64, 4096]⟩
abbrev S2048x4096 : Shape := ⟨2, ![2048, 4096]⟩
abbrev S2048x6x4096 : Shape := ⟨3, ![2048, 6, 4096]⟩
abbrev S64x4096 : Shape := ⟨2, ![64, 4096]⟩
abbrev S64x6x4096 : Shape := ⟨3, ![64, 6, 4096]⟩
abbrev S64x1x4096 : Shape := ⟨3, ![64, 1, 4096]⟩
abbrev S32x64x6x4096 : Shape := ⟨4, ![32, 64, 6, 4096]⟩

abbrev nBuf : Space → Nat
  | .hbm => 4
  | .vmem => 4
  | .smem => 0
  | _ => 0

abbrev bufTy : (tb : Table) → Fin (tcTables nBuf tb) → BufTy
  | .hbm, ⟨0, _⟩ => ⟨S32x64x4096, .f32⟩
  | .hbm, ⟨1, _⟩ => ⟨S2048x4096, .f32⟩
  | .hbm, ⟨2, _⟩ => ⟨S2048x6x4096, .f32⟩
  | .hbm, ⟨3, _⟩ => ⟨S32x64x6x4096, .f32⟩
  | .local _ .vmem, ⟨0, _⟩ => ⟨S64x4096, .f32⟩
  | .local _ .vmem, ⟨1, _⟩ => ⟨S64x4096, .f32⟩
  | .local _ .vmem, ⟨2, _⟩ => ⟨S64x6x4096, .f32⟩
  | .local _ .vmem, ⟨3, _⟩ => ⟨S64x6x4096, .f32⟩
  | _, _ => ⟨S32x64x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x6x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S32x64x4096_S2048x4096 : S32x64x4096.ShapeCasts S2048x4096
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  inb_S64x6x4096_S64x1x4096_0_0_0 : ∀ a, (![0, 0, 0] : Fin 3 → Nat) a + S64x1x4096.size a ≤ S64x6x4096.size a
  h_S64x1x4096 : 0 < S64x1x4096.numel
  shapeCasts_S64x1x4096_S64x4096 : S64x1x4096.ShapeCasts S64x4096
  shapeCasts_S64x4096_S64x1x4096 : S64x4096.ShapeCasts S64x1x4096
  inb_S64x6x4096_S64x1x4096_0_1_0 : ∀ a, (![0, 1, 0] : Fin 3 → Nat) a + S64x1x4096.size a ≤ S64x6x4096.size a
  inb_S64x6x4096_S64x1x4096_0_2_0 : ∀ a, (![0, 2, 0] : Fin 3 → Nat) a + S64x1x4096.size a ≤ S64x6x4096.size a
  inb_S64x6x4096_S64x1x4096_0_3_0 : ∀ a, (![0, 3, 0] : Fin 3 → Nat) a + S64x1x4096.size a ≤ S64x6x4096.size a
  inb_S64x6x4096_S64x1x4096_0_4_0 : ∀ a, (![0, 4, 0] : Fin 3 → Nat) a + S64x1x4096.size a ≤ S64x6x4096.size a
  inb_S64x6x4096_S64x1x4096_0_5_0 : ∀ a, (![0, 5, 0] : Fin 3 → Nat) a + S64x1x4096.size a ≤ S64x6x4096.size a
  shapeCasts_S2048x6x4096_S32x64x6x4096 : S2048x6x4096.ShapeCasts S32x64x6x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x4096.size a ≤ S2048x4096.size a
  hwx0_0 : ∀ i : grid0.Coords, EltTy.bits .f32 = 32 ∨ (Rect.block (s := S2048x4096) S64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x6x4096.size a ≤ S2048x6x4096.size a
  hwx0_1 : ∀ i : grid0.Coords, EltTy.bits .f32 = 32 ∨ (Rect.block (s := S2048x6x4096) S64x6x4096.size (cc0_transform_1 i) (hinb0_1 i)).WholeWords (EltTy.packing .f32)

variable [Facts₀]

abbrev win0_0 : Pipeline.Window sig grid0 :=
  Pipeline.Window.ofSpec (Memref.whole main_v0) S64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x6x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32x64x4096 : Shape := ⟨3, ![32, 64, 4096]⟩
abbrev S_ : Shape := ⟨0, ![]⟩
abbrev S32x64x1x4096 : Shape := ⟨4, ![32, 64, 1, 4096]⟩
abbrev S32x64x6x4096 : Shape := ⟨4, ![32, 64, 6, 4096]⟩

abbrev nBuf : Space → Nat
  | .hbm => 57
  | .vmem => 0
  | .smem => 0
  | _ => 0

abbrev bufTy : (tb : Table) → Fin (tcTables nBuf tb) → BufTy
  | .hbm, ⟨0, _⟩ => ⟨S32x64x4096, .f32⟩
  | .hbm, ⟨1, _⟩ => ⟨S32x64x4096, .f32⟩
  | .hbm, ⟨2, _⟩ => ⟨S_, .f32⟩
  | .hbm, ⟨3, _⟩ => ⟨S32x64x4096, .f32⟩
  | .hbm, ⟨4, _⟩ => ⟨S32x64x4096, .f32⟩
  | .hbm, ⟨5, _⟩ => ⟨S32x64x4096, .f32⟩
  | .hbm, ⟨6, _⟩ => ⟨S32x64x4096, .f32⟩
  | .hbm, ⟨7, _⟩ => ⟨S_, .f32⟩
  | .hbm, ⟨8, _⟩ => ⟨S32x64x4096, .f32⟩
  | .hbm, ⟨9, _⟩ => ⟨S32x64x4096, .f32⟩
  | .hbm, ⟨10, _⟩ => ⟨S32x64x4096, .f32⟩
  | .hbm, ⟨11, _⟩ => ⟨S_, .f32⟩
  | .hbm, ⟨12, _⟩ => ⟨S32x64x4096, .f32⟩
  | .hbm, ⟨13, _⟩ => ⟨S32x64x4096, .f32⟩
  | .hbm, ⟨14, _⟩ => ⟨S_, .f32⟩
  | .hbm, ⟨15, _⟩ => ⟨S32x64x4096, .f32⟩
  | .hbm, ⟨16, _⟩ => ⟨S32x64x4096, .f32⟩
  | .hbm, ⟨17, _⟩ => ⟨S32x64x4096, .f32⟩
  | .hbm, ⟨18, _⟩ => ⟨S_, .f32⟩
  | .hbm, ⟨19, _⟩ => ⟨S32x64x4096, .f32⟩
  | .hbm, ⟨20, _⟩ => ⟨S32x64x4096, .f32⟩
  | .hbm, ⟨21, _⟩ => ⟨S32x64x4096, .f32⟩
  | .hbm, ⟨22, _⟩ => ⟨S_, .f32⟩
  | .hbm, ⟨23, _⟩ => ⟨S32x64x4096, .f32⟩
  | .hbm, ⟨24, _⟩ => ⟨S32x64x4096, .f32⟩
  | .hbm, ⟨25, _⟩ => ⟨S32x64x4096, .f32⟩
  | .hbm, ⟨26, _⟩ => ⟨S_, .f32⟩
  | .hbm, ⟨27, _⟩ => ⟨S32x64x4096, .f32⟩
  | .hbm, ⟨28, _⟩ => ⟨S32x64x4096, .f32⟩
  | .hbm, ⟨29, _⟩ => ⟨S32x64x4096, .f32⟩
  | .hbm, ⟨30, _⟩ => ⟨S_, .f32⟩
  | .hbm, ⟨31, _⟩ => ⟨S32x64x4096, .f32⟩
  | .hbm, ⟨32, _⟩ => ⟨S32x64x4096, .f32⟩
  | .hbm, ⟨33, _⟩ => ⟨S32x64x4096, .f32⟩
  | .hbm, ⟨34, _⟩ => ⟨S_, .f32⟩
  | .hbm, ⟨35, _⟩ => ⟨S32x64x4096, .f32⟩
  | .hbm, ⟨36, _⟩ => ⟨S32x64x4096, .f32⟩
  | .hbm, ⟨37, _⟩ => ⟨S32x64x4096, .f32⟩
  | .hbm, ⟨38, _⟩ => ⟨S_, .f32⟩
  | .hbm, ⟨39, _⟩ => ⟨S32x64x4096, .f32⟩
  | .hbm, ⟨40, _⟩ => ⟨S32x64x4096, .f32⟩
  | .hbm, ⟨41, _⟩ => ⟨S32x64x4096, .f32⟩
  | .hbm, ⟨42, _⟩ => ⟨S_, .f32⟩
  | .hbm, ⟨43, _⟩ => ⟨S32x64x4096, .f32⟩
  | .hbm, ⟨44, _⟩ => ⟨S32x64x4096, .f32⟩
  | .hbm, ⟨45, _⟩ => ⟨S32x64x4096, .f32⟩
  | .hbm, ⟨46, _⟩ => ⟨S_, .f32⟩
  | .hbm, ⟨47, _⟩ => ⟨S32x64x4096, .f32⟩
  | .hbm, ⟨48, _⟩ => ⟨S32x64x4096, .f32⟩
  | .hbm, ⟨49, _⟩ => ⟨S32x64x4096, .f32⟩
  | .hbm, ⟨50, _⟩ => ⟨S32x64x1x4096, .f32⟩
  | .hbm, ⟨51, _⟩ => ⟨S32x64x1x4096, .f32⟩
  | .hbm, ⟨52, _⟩ => ⟨S32x64x1x4096, .f32⟩
  | .hbm, ⟨53, _⟩ => ⟨S32x64x1x4096, .f32⟩
  | .hbm, ⟨54, _⟩ => ⟨S32x64x1x4096, .f32⟩
  | .hbm, ⟨55, _⟩ => ⟨S32x64x1x4096, .f32⟩
  | .hbm, ⟨56, _⟩ => ⟨S32x64x6x4096, .f32⟩
  | _, _ => ⟨S32x64x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_cst_2 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_4 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_5 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_6 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_8 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_9 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_10 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]

class Facts₀ : Prop where
  bcast_S_S32x64x4096 : S_.BroadcastsInDim S32x64x4096 (![] : Fin 0 → Fin S32x64x4096.rank)
  bcast_S32x64x4096_S32x64x1x4096_0_1_3 : S32x64x4096.BroadcastsInDim S32x64x1x4096 (![0, 1, 3] : Fin 3 → Fin S32x64x1x4096.rank)
  concatenates_S32x64x1x4096_S32x64x1x4096_S32x64x1x4096_S32x64x1x4096_S32x64x1x4096_S32x64x1x4096_S32x64x6x4096_d2 : Shape.Concatenates [S32x64x1x4096, S32x64x1x4096, S32x64x1x4096, S32x64x1x4096, S32x64x1x4096, S32x64x1x4096] S32x64x6x4096 2

variable [Facts₀]

class Facts : Prop extends Facts₀ where

variable [Facts]
-- ==== Proof.HermiteSpec.lean ====
/-
  The six orthonormal Hermite functions of a bounded coordinate, as the one scalar rule both programs apply to
  every entry of the input.  With u = tanh(x) · s the coordinate (s the single-precision √13) and
  g = exp(-u² / 2) the Gaussian envelope,
      ψ₀ = c · g,   ψ₁ = (c₁ · u) · g,   ψ_k = (a_k · u) · ψ_{k-1} - b_k · ψ_{k-2}   (k = 2 … 5)
  with c, c₁, a_k, b_k the single-precision words both programs spell (never evaluated: the same word
  stands on both sides).  The two programs differ only in how they write the envelope's exponent: one
  negates u and halves by a product with ½ after subtracting from zero, the other negates and divides
  by 2.  On the extended reals these agree everywhere: 0 - u = -u, and a quotient by the real 2 is the
  product with the real ½.
  Then the result array: entry (b, n, k, j) of the [32, 64, 6, 4096] result is ψ_k of the input's entry (b, n, j);
  the same rule on the row-flattened [2048, 4096] input gives a [2048, 6, 4096] array, and on one block
  of 64 rows a [64, 6, 4096] block.
-/
import Idealize.ShloMosaic.PureOps.Ideal
import Idealize.ShloMosaic.PureOps.Ideal.Laws
import Idealize.ShloMosaic.Lib.ValueIdx

noncomputable section

namespace Cert.Hermite

open Idealize.ShloMosaic Idealize.ShloMosaic.ValueIdx

/-! ## The three words that are evaluated -/

/-- The word of 2.0 denotes the real 2. -/
theorem word_two : Ideal.ofBits .f32 0x40000000#32 = ((2 : ℝ) : EReal) := by
  simp [Ideal.ofBits, Ideal.ieee, -EReal.coe_mul]; norm_num

/-- The word of 0.5 denotes the real 1/2. -/
theorem word_half : Ideal.ofBits .f32 0x3F000000#32 = ((1 / 2 : ℝ) : EReal) := by
  simp [Ideal.ofBits, Ideal.ieee, -EReal.coe_mul]; norm_num

/-! ## The scalar rule -/

/-- The bounded coordinate: tanh of the entry, scaled by the word of √13. -/
def coord (x : EReal) : EReal := Ideal.tanh x * Ideal.ofBits .f32 0x4066C15A#32

/-- The Gaussian envelope exp(-u·u / 2), the exponent a quotient by the word of 2. -/
def envelope (u : EReal) : EReal := Ideal.exp (Ideal.div ((-u) * u) (Ideal.ofBits .f32 0x40000000#32))

/-- The same envelope with the exponent written (0 - u)·u·½. -/
def envelopeHalf (u : EReal) : EReal :=
  Ideal.exp ((Ideal.ofBits .f32 0x00000000#32 - u) * u * Ideal.ofBits .f32 0x3F000000#32)

/-- The two spellings of the exponent are one extended real: 0 - u is -u, and dividing by 2 is multiplying by ½. -/
theorem envelopeHalf_eq (u : EReal) : envelopeHalf u = envelope u := by
  unfold envelopeHalf envelope
  rw [Ideal.ofBits_zero_f32, zero_sub, word_two, word_half, Ideal.div_coe (by norm_num : (2 : ℝ) ≠ 0)]

/-- ψ₀ = c · g. -/
def herm0 (g : EReal) : EReal := Ideal.ofBits .f32 0x3F4049C4#32 * g
/-- ψ₁ = (c₁ · u) · g. -/
def herm1 (u g : EReal) : EReal := Ideal.ofBits .f32 0x3F87F7DF#32 * u * g
/-- ψ₂ = (1 · u) · ψ₁ - √(1/2) · ψ₀. -/
def herm2 (u g : EReal) : EReal :=
  Ideal.ofBits .f32 0x3F800000#32 * u * herm1 u g - Ideal.ofBits .f32 0x3F3504F3#32 * herm0 g
/-- ψ₃ = (√(2/3) · u) · ψ₂ - √(2/3) · ψ₁. -/
def herm3 (u g : EReal) : EReal :=
  Ideal.ofBits .f32 0x3F5105EC#32 * u * herm2 u g - Ideal.ofBits .f32 0x3F5105EC#32 * herm1 u g
/-- ψ₄ = (√(1/2) · u) · ψ₃ - √(3/4) · ψ₂. -/
def herm4 (u g : EReal) : EReal :=
  Ideal.ofBits .f32 0x3F3504F3#32 * u * herm3 u g - Ideal.ofBits .f32 0x3F5DB3D7#32 * herm2 u g
/-- ψ₅ = (√(2/5) · u) · ψ₄ - √(4/5) · ψ₃. -/
def herm5 (u g : EReal) : EReal :=
  Ideal.ofBits .f32 0x3F21E89B#32 * u * herm4 u g - Ideal.ofBits .f32 0x3F64F92E#32 * herm3 u g

/-- The six functions at coordinate u and envelope g, by order. -/
def herm (u g : EReal) (k : Fin 6) : EReal :=
  match k with
  | ⟨0, _⟩ => herm0 g
  | ⟨1, _⟩ => herm1 u g
  | ⟨2, _⟩ => herm2 u g
  | ⟨3, _⟩ => herm3 u g
  | ⟨4, _⟩ => herm4 u g
  | ⟨5, _⟩ => herm5 u g

/-- ψ_k of an input entry. -/
def psi (k : Fin 6) (x : EReal) : EReal := herm (coord x) (envelope (coord x)) k

/-! ## The rule laid out over the arrays -/

/-- The result: entry (b, n, k, j) is ψ_k of the input's entry (b, n, j). -/
def result (x : (⟨3, ![32, 64, 4096]⟩ : Shape).Idx → EReal) : (⟨4, ![32, 64, 6, 4096]⟩ : Shape).Idx → EReal :=
  fun i => psi (i 2) (x (ix3 (i 0) (i 1) (i 3)))

/-- The same over the row-flattened input: entry (r, k, j) is ψ_k of entry (r, j). -/
def rowsResult (a : (⟨2, ![2048, 4096]⟩ : Shape).Idx → EReal) : (⟨3, ![2048, 6, 4096]⟩ : Shape).Idx → EReal :=
  fun i => psi (i 1) (a (ix2 (i 0) (i 2)))

/-- The same over one block of 64 rows. -/
def blockResult (a : (⟨2, ![64, 4096]⟩ : Shape).Idx → EReal) : (⟨3, ![64, 6, 4096]⟩ : Shape).Idx → EReal :=
  fun i => psi (i 1) (a (ix2 (i 0) (i 2)))

end Cert.Hermite

end
-- ==== Proof.HermiteBlock.lean ====
/-
  What the kernel body leaves in one output block, at the ideal instance.  The body loads its whole [64, 4096]
  input block x, computes the coordinate u = tanh(x)·s and the envelope exp((0 - u)·u·½) entry by entry, runs the
  three-term recurrence, and stores ψ_k as the [64, 1, 4096] slab at position k of the middle axis of the
  [64, 6, 4096] output block, k = 0 … 5.  Each slab is a row-major re-reading of a [64, 4096] value, so slab entry
  (r, 0, j) is that value's entry (r, j); the six slabs tile the block, and together they are the block rule
  (r, k, j) ↦ ψ_k(x (r, j)).
-/
import proofs.«132646_j41721312314117_1_alg».proof.Proof.Gen.KernelIdeal.Frame
import proofs.«132646_j41721312314117_1_alg».proof.Proof.HermiteSpec
import Idealize.ShloMosaic.Lib.Pipeline.Value
import Idealize.ShloMosaic.Lib.ValueIdx

noncomputable section

namespace Cert.KernelIdeal.Block

open Cert.KernelIdeal Cert.KernelIdeal.Gen Cert.Hermite
open Idealize.ShloMosaic Idealize.ShloMosaic.ValueIdx

/-! ## The body's values entry by entry -/

/-- The scaled tanh of the loaded block. -/
theorem coord_eq (v0 : Vec Ideal S64x4096 .f32) : k0_pay6 (F := Ideal) v0 = fun j => coord (v0 j) := by
  unfold k0_pay6
  simp only [shapeCast_self]
  rfl

/-- The envelope, in the body's spelling of the exponent. -/
theorem env_eq (v0 : Vec Ideal S64x4096 .f32) :
    k0_pay7 (F := Ideal) v0 = fun j => envelopeHalf (coord (v0 j)) := by
  unfold k0_pay7
  simp only [coord_eq]
  rfl

/-- ψ₀. -/
theorem psi0_eq (v0 : Vec Ideal S64x4096 .f32) : k0_pay8 (F := Ideal) v0 = fun j => psi 0 (v0 j) := by
  unfold k0_pay8
  simp only [env_eq, envelopeHalf_eq]
  rfl

/-- ψ₁. -/
theorem psi1_eq (v0 : Vec Ideal S64x4096 .f32) : k0_pay10 (F := Ideal) v0 = fun j => psi 1 (v0 j) := by
  unfold k0_pay10
  simp only [coord_eq, env_eq, envelopeHalf_eq]
  rfl

/-- ψ₂ from ψ₁ and ψ₀. -/
theorem psi2_eq (v0 : Vec Ideal S64x4096 .f32) : k0_pay12 (F := Ideal) v0 = fun j => psi 2 (v0 j) := by
  unfold k0_pay12
  simp only [coord_eq, psi0_eq, psi1_eq]
  rfl

/-- ψ₃ from ψ₂ and ψ₁: the body forms the two products first and subtracts afterwards. -/
theorem psi3_eq (v0 : Vec Ideal S64x4096 .f32) :
    k0_pay1 (F := Ideal) (k0_pay14 v0) (k0_pay15 v0) = fun j => psi 3 (v0 j) := by
  unfold k0_pay1 k0_pay14 k0_pay15
  simp only [coord_eq, psi1_eq, psi2_eq]
  rfl

/-- ψ₄ from ψ₃ and ψ₂. -/
theorem psi4_eq (v0 : Vec Ideal S64x4096 .f32) :
    k0_pay3 (F := Ideal) (k0_pay6 v0) (k0_pay12 v0) (k0_pay14 v0) (k0_pay15 v0) = fun j => psi 4 (v0 j) := by
  unfold k0_pay3
  simp only [psi3_eq, coord_eq, psi2_eq]
  rfl

/-- The last slab: ψ₅ from ψ₄ and ψ₃, formed and re-read as a slab in one step. -/
theorem psi5_slab (v0 : Vec Ideal S64x4096 .f32) :
    k0_pay5 (F := Ideal) (k0_pay6 v0) (k0_pay12 v0) (k0_pay14 v0) (k0_pay15 v0)
      = shapeCast S64x1x4096 (fun j => psi 5 (v0 j)) shapeCasts_S64x4096_S64x1x4096 := by
  unfold k0_pay5
  simp only [psi4_eq, psi3_eq]
  simp only [coord_eq]
  refine congrArg (fun w : FVec Ideal S64x4096 .f32 => shapeCast S64x1x4096 w shapeCasts_S64x4096_S64x1x4096) ?_
  rfl

/-! ## The six slabs -/

/-- A [64, 4096] value re-read as a [64, 1, 4096] slab: slab entry (r, 0, j) is entry (r, j), the two having one
    row-major position. -/
theorem slab_apply (w : FVec Ideal S64x4096 .f32) (x : S64x1x4096.Idx) :
    shapeCast S64x1x4096 w shapeCasts_S64x4096_S64x1x4096 x = w (ix2 (x 0) (x 2)) :=
  shapeCast_apply w shapeCasts_S64x4096_S64x1x4096 x (ix2 (x 0) (x 2)) (by
    rw [Shape.rowMajor_val_two, Shape.rowMajor_val_three]
    have h1 : (x 1).val < 1 := (x 1).isLt
    show (x 0).val * 4096 + (x 2).val = ((x 0).val * 1 + (x 1).val) * 4096 + (x 2).val
    omega)

/-- A slab holding ψ_k of the block, stored at position k of the middle axis, agrees with the block rule at every
    entry under it: the slab's entry (r, 0, j) lands on block entry (r, k, j). -/
theorem slab_agrees (k : Nat) (hk : k < 6)
    (inb : ∀ a, (![0, k, 0] : Fin 3 → Nat) a + S64x1x4096.size a ≤ S64x6x4096.size a)
    (w : FVec Ideal S64x4096 .f32) (x0 : Vec Ideal S64x4096 .f32) (hw : w = fun j => psi ⟨k, hk⟩ (x0 j))
    (x : S64x1x4096.Idx) :
    shapeCast S64x1x4096 w shapeCasts_S64x4096_S64x1x4096 x
      = blockResult x0 ((Rect.unit (s := S64x6x4096) ![0, k, 0] S64x1x4096.size inb).emb x) := by
  rw [slab_apply, hw]
  have h1 : (x 1).val < 1 := (x 1).isLt
  have e1 : (Rect.unit (s := S64x6x4096) ![0, k, 0] S64x1x4096.size inb).emb x 1 = (⟨k, hk⟩ : Fin 6) :=
    Fin.ext (by show k + 1 * (x 1).val = k; omega)
  have e0 : (Rect.unit (s := S64x6x4096) ![0, k, 0] S64x1x4096.size inb).emb x 0 = x 0 :=
    Fin.ext (by show 0 + 1 * (x 0).val = (x 0).val; omega)
  have e2 : (Rect.unit (s := S64x6x4096) ![0, k, 0] S64x1x4096.size inb).emb x 2 = x 2 :=
    Fin.ext (by show 0 + 1 * (x 2).val = (x 2).val; omega)
  show psi ⟨k, hk⟩ (x0 (ix2 (x 0) (x 2))) = psi _ (x0 (ix2 _ _))
  rw [e1, e0, e2]

/-! ## The block -/

theorem zero_offsets : (![0, 0] : Fin 2 → Nat) = fun _ => 0 := funext fun a => by fin_cases a <;> rfl

/-- After the body the output block holds the block rule of the input block: every slab agrees with it, and the
    slabs cover the block. -/
theorem out_block (x0 : Vec Ideal S64x4096 .f32) : out0_1 (F := Ideal) x0 = blockResult x0 := by
  funext y
  unfold out0_1
  simp only [View.ld_unit_zero (S := S64x4096) zero_offsets]
  refine View.canon_apply_of_pieces (Val := Elt Ideal) (blockResult x0) _ ?_ y (cover0_1 _ _ _ _ _ _ y)
  intro pc hpc x
  rcases List.mem_cons.mp hpc with rfl | hpc
  · show k0_pay5 (k0_pay6 x0) (k0_pay12 x0) (k0_pay14 x0) (k0_pay15 x0) x = blockResult x0 (r0_6.emb x)
    rw [psi5_slab]
    exact slab_agrees 5 (by decide) _ _ x0 rfl x
  rcases List.mem_cons.mp hpc with rfl | hpc
  · show shapeCast S64x1x4096 (k0_pay3 (k0_pay6 x0) (k0_pay12 x0) (k0_pay14 x0) (k0_pay15 x0)) shapeCasts_S64x4096_S64x1x4096 x
      = blockResult x0 (r0_5.emb x)
    exact slab_agrees 4 (by decide) _ _ x0 (psi4_eq x0) x
  rcases List.mem_cons.mp hpc with rfl | hpc
  · show shapeCast S64x1x4096 (k0_pay1 (k0_pay14 x0) (k0_pay15 x0)) shapeCasts_S64x4096_S64x1x4096 x
      = blockResult x0 (r0_4.emb x)
    exact slab_agrees 3 (by decide) _ _ x0 (psi3_eq x0) x
  rcases List.mem_cons.mp hpc with rfl | hpc
  · show shapeCast S64x1x4096 (k0_pay12 x0) shapeCasts_S64x4096_S64x1x4096 x = blockResult x0 (r0_3.emb x)
    exact slab_agrees 2 (by decide) _ _ x0 (psi2_eq x0) x
  rcases List.mem_cons.mp hpc with rfl | hpc
  · show shapeCast S64x1x4096 (k0_pay10 x0) shapeCasts_S64x4096_S64x1x4096 x = blockResult x0 (r0_2.emb x)
    exact slab_agrees 1 (by decide) _ _ x0 (psi1_eq x0) x
  rcases List.mem_cons.mp hpc with rfl | hpc
  · show shapeCast S64x1x4096 (k0_pay8 x0) shapeCasts_S64x4096_S64x1x4096 x = blockResult x0 (r0_1.emb x)
    exact slab_agrees 0 (by decide) _ _ x0 (psi0_eq x0) x
  nomatch hpc

end Cert.KernelIdeal.Block

end
-- ==== Proof.HermiteWhole.lean ====
/-
  The kernel program's result array, at the ideal instance.  The program flattens the input's two leading axes
  ([32, 64, 4096] read as [2048, 4096]), runs the body on the 32 blocks of 64 rows, each grid point writing
  back the [64, 6, 4096] block of its rows, and re-reads the [2048, 6, 4096] array as [32, 64, 6, 4096].
  Point t's input block and output block are both the rows 64·t … 64·t + 63, so what point t writes back is that
  block of the row-wise rule applied to the flattened input; the 32 blocks tile the array, hence the whole array is
  the row-wise rule; and row b·64 + n of the flattened arrays is entry (b, n) of the unflattened ones, so the result
  is ψ_k of the input's entry (b, n, j) at (b, n, k, j).
-/
import proofs.«132646_j41721312314117_1_alg».proof.Proof.HermiteBlock
import Idealize.ShloMosaic.Lib.Pipeline.Value
import Idealize.ShloMosaic.Lib.StableHlo.Run

noncomputable section

namespace Cert.KernelIdeal.Whole

open Cert.KernelIdeal Cert.KernelIdeal.Gen Cert.KernelIdeal.Block Cert.Hermite
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## One point's block -/

/-- The two index maps over the 32 points: input and output blocks move together along the rows, and neither moves
    along another axis. -/
theorem idx_facts : ∀ t : Fin cfg0.N, win0_0.index t (0 : Fin 2) = win0_1.index t (0 : Fin 3)
    ∧ win0_0.index t (1 : Fin 2) = 0 ∧ win0_1.index t (1 : Fin 3) = 0 ∧ win0_1.index t (2 : Fin 3) = 0 :=
  (by decide +kernel : ∀ t : Fin grid0.N, _)

/-- Every one of the 32 row blocks is some point's. -/
theorem idx_onto : ∀ q : Fin 32, ∃ t : Fin cfg0.N, win0_1.index t = ![q.val, 0, 0] :=
  (by decide +kernel : ∀ q : Fin 32, ∃ t : Fin grid0.N, win0_1.index t = ![q.val, 0, 0])

/-- The block rule of a block of rows is the row-wise rule read under the block, when the block's rows are the
    array's rows there. -/
theorem block_of_rows (a : S2048x4096.Idx → EReal) (xb : S64x4096.Idx → EReal) (j : S64x6x4096.Idx)
    (i : S2048x6x4096.Idx) (h1 : (i 1).val = (j 1).val) (hx : xb (ix2 (j 0) (j 2)) = a (ix2 (i 0) (i 2))) :
    blockResult xb j = rowsResult a i := by
  unfold blockResult rowsResult
  rw [hx, show i 1 = j 1 from Fin.ext h1]

/-- What point t writes back is block t of the row-wise rule applied to the flattened input. -/
theorem flushed_eq (c : Dev nD) (t : Fin cfg0.N) :
    (dats m 0 c).flushed 1 t = ((cfg0.win 1).blk t).view.read (Elt Ideal) (rowsResult (V m c main_v0)) := by
  show (cfg0.win 1).cut (grid0.coords t) ((dats m 0 c).after 1 t) = _
  rw [after0_1, out_block]
  obtain ⟨e0, e1, e2, e3⟩ := idx_facts t
  funext j
  refine block_of_rows (V m c main_v0) (iblk m c 0 t) j (((cfg0.win 1).blk t).view.emb j) ?_ ?_
  · show win0_1.index t (1 : Fin 3) * 6 + 1 * (j 1).val = (j 1).val
    omega
  · show V m c main_v0 (((cfg0.win 0).blk t).view.emb (ix2 (j 0) (j 2))) = V m c main_v0 (ix2 _ _)
    congr 1
    funext a; apply Fin.ext
    match a with
    | ⟨0, _⟩ => show win0_0.index t (0 : Fin 2) * 64 + 1 * (j 0).val = win0_1.index t (0 : Fin 3) * 64 + 1 * (j 0).val; omega
    | ⟨1, _⟩ => show win0_0.index t (1 : Fin 2) * 4096 + 1 * (j 2).val = win0_1.index t (2 : Fin 3) * 4096 + 1 * (j 2).val; omega

/-! ## The blocks tile the array -/

/-- An entry is under point t's block iff each coordinate is in the block's range. -/
theorem mem_blk (t : Fin cfg0.N) (i : S2048x6x4096.Idx) :
    i ∈ ((cfg0.win 1).blk t).view.set ↔ ∀ a : Fin 3, win0_1.index t a * S64x6x4096.size a ≤ (i a).val
      ∧ (i a).val < win0_1.index t a * S64x6x4096.size a + S64x6x4096.size a := by
  show i ∈ ((View.whole main_v1).slice (win0_1.rect t)).set ↔ _
  rw [View.set_slice_whole, Rect.mem_set_unit]
  exact Iff.rfl

/-- Row r is under the block of point r / 64. -/
theorem cover (i : S2048x6x4096.Idx) :
    ∃ t : Fin cfg0.N, (cfg0.win 1).flush t = true ∧ i ∈ ((cfg0.win 1).blk t).view.set := by
  have hi0 : (i 0).val < 2048 := (i 0).isLt
  have hi1 : (i 1).val < 6 := (i 1).isLt
  have hi2 : (i 2).val < 4096 := (i 2).isLt
  obtain ⟨t, ht⟩ := idx_onto ⟨(i 0).val / 64, by omega⟩
  have q0 : win0_1.index t (0 : Fin 3) = (i 0).val / 64 := congrFun ht 0
  have q1 : win0_1.index t (1 : Fin 3) = 0 := congrFun ht 1
  have q2 : win0_1.index t (2 : Fin 3) = 0 := congrFun ht 2
  refine ⟨t, flush0_1 t, ?_⟩
  rw [mem_blk]
  intro a
  match a with
  | ⟨0, _⟩ => show win0_1.index t (0 : Fin 3) * 64 ≤ (i 0).val ∧ (i 0).val < win0_1.index t (0 : Fin 3) * 64 + 64; omega
  | ⟨1, _⟩ => show win0_1.index t (1 : Fin 3) * 6 ≤ (i 1).val ∧ (i 1).val < win0_1.index t (1 : Fin 3) * 6 + 6; omega
  | ⟨2, _⟩ => show win0_1.index t (2 : Fin 3) * 4096 ≤ (i 2).val ∧ (i 2).val < win0_1.index t (2 : Fin 3) * 4096 + 4096; omega

/-- After the region the [2048, 6, 4096] array is the row-wise rule applied to the flattened input. -/
theorem rows_final (c : Dev nD) : (dats m 0 c).arrAt 1 cfg0.N = rowsResult (V m c main_v0) :=
  (dats m 0 c).arrAt_eq_of_cover 1 (rowsResult (V m c main_v0)) (fun t _ => flushed_eq m c t) cover

/-! ## The flattening before the region and the unflattening after it -/

/-- The region finds the input re-read as [2048, 4096]. -/
theorem rows_in (c : Dev nD) : (V m c main_v0 : S2048x4096.Idx → EReal)
    = shapeCast S2048x4096 (m ((c : Thread nD τ).loc main_arg0)) shapeCasts_S32x64x4096_S2048x4096 := by
  show StableHlo.after hostOps0 (fun b => m (c, b)) (Proc.devRef .tc main_v0) = _
  after_results
  rfl

/-- The program's last line re-reads the region's [2048, 6, 4096] array as [32, 64, 6, 4096]. -/
theorem tail_eq (c : Dev nD) :
    Pipeline.afterTail₀ cfgs (dats m) 0 (V0 m) [hostOps1] c main_v2
      = shapeCast S32x64x6x4096 ((dats m 0 c).arrAt 1 cfg0.N) shapeCasts_S2048x6x4096_S32x64x6x4096 := by
  unfold Pipeline.afterTail₀
  show StableHlo.after hostOps1 _ (Proc.devRef .tc main_v2) = _
  after_results
  have e : Pipeline.withArrays (cfgs 0).spec c (V0 m c) (fun w => (dats m 0 c).arrAt w (cfgs 0).N)
      (Proc.devRef .tc main_v1) = (dats m 0 c).arrAt 1 cfg0.N :=
    Pipeline.withArrays_arr spec0 launch0.win.arr_inj c _ _ 1
  rw [e]
  rfl

/-- Row b·64 + n of the flattened arrays is entry (b, n) of the unflattened ones: flattening the input, applying the
    row-wise rule and unflattening the result is the rule itself. -/
theorem unflatten (x : S32x64x4096.Idx → EReal) :
    shapeCast S32x64x6x4096 (rowsResult (shapeCast S2048x4096 x shapeCasts_S32x64x4096_S2048x4096))
      shapeCasts_S2048x6x4096_S32x64x6x4096 = result x := by
  funext i
  have h0 : (i 0).val < 32 := (i 0).isLt
  have h1 : (i 1).val < 64 := (i 1).isLt
  let r : Fin 2048 := ⟨(i 0).val * 64 + (i 1).val, by omega⟩
  refine (shapeCast_apply _ shapeCasts_S2048x6x4096_S32x64x6x4096 i (ix3 r (i 2) (i 3)) ?_).trans ?_
  · rw [Shape.rowMajor_val_three, Shape.rowMajor_val_four]
    rfl
  · show psi (i 2) (shapeCast S2048x4096 x shapeCasts_S32x64x4096_S2048x4096 (ix2 r (i 3)))
      = psi (i 2) (x (ix3 (i 0) (i 1) (i 3)))
    congr 1
    refine shapeCast_apply x shapeCasts_S32x64x4096_S2048x4096 (ix2 r (i 3)) (ix3 (i 0) (i 1) (i 3)) ?_
    rw [Shape.rowMajor_val_three, Shape.rowMajor_val_two]
    rfl

/-! ## The run -/

/-- The program's result array is the rule applied to the input. -/
theorem result_final (c : Dev nD) :
    Pipeline.afterTail₀ cfgs (dats m) 0 (V0 m) [hostOps1] c main_v2 = result (m ((c : Thread nD τ).loc main_arg0)) := by
  rw [tail_eq, rows_final, rows_in, unflatten]

/-- Every weakly fair execution of the kernel program terminates with the result array at the rule applied to the
    input, and the input unchanged. -/
theorem run : θ_run defs (onTc (τ := τ) (main (F := Ideal))) ⟨m, fun _ => 0, ρ⟩ fun r => ∀ c : Dev nD,
    r.2.mem ((c.tc : Thread nD τ).loc main_v2) = result (m ((c.tc : Thread nD τ).loc main_arg0))
    ∧ r.2.mem ((c.tc : Thread nD τ).loc main_arg0) = m ((c.tc : Thread nD τ).loc main_arg0) :=
  (θ_run defs _ _).mono (fun r h c =>
      ⟨((h c).2 main_v2 (Pipeline.mem_restRefs_of main_v2 (by decide) (by decide))).trans (result_final m c),
       ((h c).2 main_arg0 (Pipeline.mem_restRefs_of main_arg0 (by decide) (by decide))).trans (W_main_arg0 m (dats m) c)⟩)
    (run_main m ρ)

end Cert.KernelIdeal.Whole

end
-- ==== Proof.HermiteReference.lean ====
/-
  The reference program's result, at the ideal instance.  The reference computes the coordinate u = tanh(x)·s,
  the envelope exp((-u·u)/2) and the six functions ψ₀ … ψ₅ as whole [32, 64, 4096] arrays, entry by entry, gives each
  a unit axis in third place ([32, 64, 1, 4096]) and joins the six along that axis.  So entry (b, n, k, j) of the joined
  array is entry (b, n, 0, j) of the k-th piece, which is ψ_k of the input's entry (b, n, j).
-/
import proofs.«132646_j41721312314117_1_alg».proof.Proof.Gen.ReferenceIdeal.Read
import proofs.«132646_j41721312314117_1_alg».proof.Proof.HermiteSpec
import Idealize.ShloMosaic.Lib.Pipeline.Value
import Idealize.ShloMosaic.Lib.ValueIdx

noncomputable section

namespace Cert.ReferenceIdeal.Stack

open Cert.ReferenceIdeal Cert.ReferenceIdeal.Gen Cert.ReferenceIdeal.Read Cert.Hermite
open Idealize.ShloMosaic Idealize.ShloMosaic.ValueIdx

variable (x : (⟨S32x64x4096, .f32⟩ : BufTy).Contents (Elt Ideal))

/-! ## The six arrays entry by entry -/

/-- The coordinate. -/
theorem coord_at (j : S32x64x4096.Idx) : val_main_v2 (F := Ideal) x j = coord (x j) := by
  rw [val_main_v2_apply, val_main_v0_apply, val_main_v1_apply, val_main_cst_apply]
  rfl

/-- The envelope, the exponent a quotient by 2. -/
theorem env_at (j : S32x64x4096.Idx) : val_main_v7 (F := Ideal) x j = envelope (coord (x j)) := by
  rw [val_main_v7_apply, val_main_v6_apply, val_main_v4_apply, val_main_v3_apply, val_main_v5_apply,
    val_main_cst_0_apply, coord_at]
  rfl

/-- ψ₀. -/
theorem psi0_at (j : S32x64x4096.Idx) : val_main_v9 (F := Ideal) x j = psi 0 (x j) := by
  rw [val_main_v9_apply, val_main_v8_apply, val_main_cst_1_apply, env_at]
  rfl

/-- ψ₁. -/
theorem psi1_at (j : S32x64x4096.Idx) : val_main_v12 (F := Ideal) x j = psi 1 (x j) := by
  rw [val_main_v12_apply, val_main_v11_apply, val_main_v10_apply, val_main_cst_2_apply, coord_at, env_at]
  rfl

/-- ψ₂ from ψ₁ and ψ₀. -/
theorem psi2_at (j : S32x64x4096.Idx) : val_main_v18 (F := Ideal) x j = psi 2 (x j) := by
  rw [val_main_v18_apply, val_main_v15_apply, val_main_v14_apply, val_main_v13_apply, val_main_cst_3_apply,
    val_main_v17_apply, val_main_v16_apply, val_main_cst_4_apply, coord_at, psi1_at, psi0_at]
  rfl

/-- ψ₃ from ψ₂ and ψ₁. -/
theorem psi3_at (j : S32x64x4096.Idx) : val_main_v24 (F := Ideal) x j = psi 3 (x j) := by
  rw [val_main_v24_apply, val_main_v21_apply, val_main_v20_apply, val_main_v19_apply, val_main_cst_5_apply,
    val_main_v23_apply, val_main_v22_apply, val_main_cst_6_apply, coord_at, psi2_at, psi1_at]
  rfl

/-- ψ₄ from ψ₃ and ψ₂. -/
theorem psi4_at (j : S32x64x4096.Idx) : val_main_v30 (F := Ideal) x j = psi 4 (x j) := by
  rw [val_main_v30_apply, val_main_v27_apply, val_main_v26_apply, val_main_v25_apply, val_main_cst_7_apply,
    val_main_v29_apply, val_main_v28_apply, val_main_cst_8_apply, coord_at, psi3_at, psi2_at]
  rfl

/-- ψ₅ from ψ₄ and ψ₃. -/
theorem psi5_at (j : S32x64x4096.Idx) : val_main_v36 (F := Ideal) x j = psi 5 (x j) := by
  rw [val_main_v36_apply, val_main_v33_apply, val_main_v32_apply, val_main_v31_apply, val_main_cst_9_apply,
    val_main_v35_apply, val_main_v34_apply, val_main_cst_10_apply, coord_at, psi4_at, psi3_at]
  rfl

/-! ## Six pieces joined along a unit axis -/

/-- Six [32, 64, 1, 4096] pieces joined along the third axis, read at (b, n, k, j): piece k at (b, n, 0, j). -/
theorem join6_apply {α : Type} (p : Fin 6 → S32x64x1x4096.Idx → α)
    (h : Shape.Concatenates [S32x64x1x4096, S32x64x1x4096, S32x64x1x4096, S32x64x1x4096, S32x64x1x4096, S32x64x1x4096] S32x64x6x4096 2)
    (i : S32x64x6x4096.Idx) :
    concatenate S32x64x6x4096 2 [⟨S32x64x1x4096, p 0⟩, ⟨S32x64x1x4096, p 1⟩, ⟨S32x64x1x4096, p 2⟩, ⟨S32x64x1x4096, p 3⟩,
      ⟨S32x64x1x4096, p 4⟩, ⟨S32x64x1x4096, p 5⟩] h i = p (i 2) (ix4 (i 0) (i 1) (0 : Fin 1) (i 3)) := by
  let pieces : List ((s : Shape) × (s.Idx → α)) := [⟨S32x64x1x4096, p 0⟩, ⟨S32x64x1x4096, p 1⟩, ⟨S32x64x1x4096, p 2⟩, ⟨S32x64x1x4096, p 3⟩, ⟨S32x64x1x4096, p 4⟩, ⟨S32x64x1x4096, p 5⟩]
  show concatenate S32x64x6x4096 2 pieces h i = _
  have off : ∀ b : Fin S32x64x1x4096.rank, b.cast (rfl : S32x64x1x4096.rank = S32x64x6x4096.rank) ≠ (2 : Fin 4) →
      ((ix4 (i 0) (i 1) (0 : Fin 1) (i 3) : S32x64x1x4096.Idx) b).val = (i (b.cast rfl)).val := fun b hb =>
    match b, hb with
    | ⟨0, _⟩, _ => rfl
    | ⟨1, _⟩, _ => rfl
    | ⟨2, _⟩, hb => absurd rfl hb
    | ⟨3, _⟩, _ => rfl
  match h2 : i 2 with
  | ⟨0, _⟩ =>
    exact concatenate_apply_piece (t := S32x64x6x4096) 2 pieces h i 0 (by simp [pieces]) S32x64x1x4096 (p 0) rfl rfl 0 rfl _ off
      (by show 0 + 0 = (i 2).val; rw [h2])
  | ⟨1, _⟩ =>
    exact concatenate_apply_piece (t := S32x64x6x4096) 2 pieces h i 1 (by simp [pieces]) S32x64x1x4096 (p 1) rfl rfl 1 rfl _ off
      (by show 1 + 0 = (i 2).val; rw [h2])
  | ⟨2, _⟩ =>
    exact concatenate_apply_piece (t := S32x64x6x4096) 2 pieces h i 2 (by simp [pieces]) S32x64x1x4096 (p 2) rfl rfl 2 rfl _ off
      (by show 2 + 0 = (i 2).val; rw [h2])
  | ⟨3, _⟩ =>
    exact concatenate_apply_piece (t := S32x64x6x4096) 2 pieces h i 3 (by simp [pieces]) S32x64x1x4096 (p 3) rfl rfl 3 rfl _ off
      (by show 3 + 0 = (i 2).val; rw [h2])
  | ⟨4, _⟩ =>
    exact concatenate_apply_piece (t := S32x64x6x4096) 2 pieces h i 4 (by simp [pieces]) S32x64x1x4096 (p 4) rfl rfl 4 rfl _ off
      (by show 4 + 0 = (i 2).val; rw [h2])
  | ⟨5, _⟩ =>
    exact concatenate_apply_piece (t := S32x64x6x4096) 2 pieces h i 5 (by simp [pieces]) S32x64x1x4096 (p 5) rfl rfl 5 rfl _ off
      (by show 5 + 0 = (i 2).val; rw [h2])

/-! ## The joined array -/

/-- The six pieces, by order. -/
def pieces (k : Fin 6) : S32x64x1x4096.Idx → EReal :=
  match k with
  | ⟨0, _⟩ => val_main_v37 (F := Ideal) x
  | ⟨1, _⟩ => val_main_v38 (F := Ideal) x
  | ⟨2, _⟩ => val_main_v39 (F := Ideal) x
  | ⟨3, _⟩ => val_main_v40 (F := Ideal) x
  | ⟨4, _⟩ => val_main_v41 (F := Ideal) x
  | ⟨5, _⟩ => val_main_v42 (F := Ideal) x

/-- Piece k at (b, n, 0, j) is ψ_k of the input's entry (b, n, j): giving an array a unit axis reads it at the other
    coordinates. -/
theorem pieces_at (k : Fin 6) (b : Fin 32) (n : Fin 64) (z : Fin 1) (j : Fin 4096) :
    pieces x k (ix4 b n z j) = psi k (x (ix3 b n j)) := by
  have e : ∀ q : S32x64x1x4096.Idx → S32x64x4096.Idx, q = idx_main_v37 → q (ix4 b n z j) = ix3 b n j := by
    intro q hq; subst hq
    funext a; match a with | ⟨0, _⟩ => rfl | ⟨1, _⟩ => rfl | ⟨2, _⟩ => rfl
  match k with
  | ⟨0, _⟩ => show val_main_v37 (F := Ideal) x _ = _; rw [val_main_v37_apply, e idx_main_v37 rfl, psi0_at]; rfl
  | ⟨1, _⟩ => show val_main_v38 (F := Ideal) x _ = _; rw [val_main_v38_apply, e idx_main_v38 rfl, psi1_at]; rfl
  | ⟨2, _⟩ => show val_main_v39 (F := Ideal) x _ = _; rw [val_main_v39_apply, e idx_main_v39 rfl, psi2_at]; rfl
  | ⟨3, _⟩ => show val_main_v40 (F := Ideal) x _ = _; rw [val_main_v40_apply, e idx_main_v40 rfl, psi3_at]; rfl
  | ⟨4, _⟩ => show val_main_v41 (F := Ideal) x _ = _; rw [val_main_v41_apply, e idx_main_v41 rfl, psi4_at]; rfl
  | ⟨5, _⟩ => show val_main_v42 (F := Ideal) x _ = _; rw [val_main_v42_apply, e idx_main_v42 rfl, psi5_at]; rfl

/-- The reference's result array is the rule: entry (b, n, k, j) is ψ_k of the input's entry (b, n, j). -/
theorem result_eq : val_main_v43 (F := Ideal) x = result x := by
  funext i
  unfold val_main_v43
  refine (join6_apply (pieces x)
    concatenates_S32x64x1x4096_S32x64x1x4096_S32x64x1x4096_S32x64x1x4096_S32x64x1x4096_S32x64x1x4096_S32x64x6x4096_d2 i).trans ?_
  exact pieces_at x (i 2) (i 0) (i 1) 0 (i 3)

end Cert.ReferenceIdeal.Stack

end
-- ==== Proof.lean ====
/-
  The kernel evaluates, for every entry x of a [32, 64, 4096] input, the first six orthonormal Hermite functions of
  the bounded coordinate u = tanh(x)·√13 — ψ₀ = c·g, ψ₁ = (c₁·u)·g with g = exp(-u²/2), then the three-term recurrence
  ψ_k = (a_k·u)·ψ_{k-1} - b_k·ψ_{k-2} — and lays them out as a [32, 64, 6, 4096] array, ψ_k of entry (b, n, j) at
  (b, n, k, j).  It does so block by block over the row-flattened input; the reference does it on whole arrays and
  stacks the six results along a new third axis.  Both spell the same single-precision constants and the same
  order of products, so on the extended reals the two are one function (Proof/HermiteSpec.lean: the only difference,
  (0 - u)·u·½ against (-u·u)/2 in the exponent, is an identity of extended reals).  The kernel program's result is read
  off its run block by block (Proof/HermiteBlock.lean, Proof/HermiteWhole.lean), the reference's off its run
  operation by operation (Proof/HermiteReference.lean); no finiteness of the input is used.
  No operation of the kernel is rewritten for the reading over the extended reals: that reading is the kernel's own text.
-/
import proofs.«132646_j41721312314117_1_alg».proof.Defs
import proofs.«132646_j41721312314117_1_alg».proof.Proof.Gen.Kernel
import proofs.«132646_j41721312314117_1_alg».proof.Proof.Gen.Kernel.Skeleton
import proofs.«132646_j41721312314117_1_alg».proof.Proof.Gen.Kernel.Launch
import proofs.«132646_j41721312314117_1_alg».proof.Proof.Gen.Kernel.Points
import proofs.«132646_j41721312314117_1_alg».proof.Proof.Gen.Kernel.Frame
import proofs.«132646_j41721312314117_1_alg».proof.Proof.Gen.KernelIdeal
import proofs.«132646_j41721312314117_1_alg».proof.Proof.Gen.KernelIdeal.Skeleton
import proofs.«132646_j41721312314117_1_alg».proof.Proof.Gen.KernelIdeal.Launch
import proofs.«132646_j41721312314117_1_alg».proof.Proof.Gen.KernelIdeal.Points
import proofs.«132646_j41721312314117_1_alg».proof.Proof.Gen.KernelIdeal.Frame
import proofs.«132646_j41721312314117_1_alg».proof.Proof.Gen.ReferenceIdeal
import proofs.«132646_j41721312314117_1_alg».proof.Proof.Gen.ReferenceIdeal.Run
import proofs.«132646_j41721312314117_1_alg».proof.Proof.Gen.ReferenceIdeal.Read
import proofs.«132646_j41721312314117_1_alg».proof.Proof.Gen.Pre_finite_inputs
import proofs.«132646_j41721312314117_1_alg».proof.Proof.HermiteWhole
import proofs.«132646_j41721312314117_1_alg».proof.Proof.HermiteReference
import Idealize.ShloMosaic.Adequacy
import Idealize.ShloMosaic.Init

noncomputable section

namespace Cert.Proof

open Idealize.ShloMosaic Idealize.SL.Sem

/-- The kernel program runs and leaves its input as it found it. -/
theorem frame_kernel : Cert.frame_Kernel := fun m ρ _ => Cert.Kernel.Gen.frame m ρ

/-- So does its reading over the extended reals. -/
theorem frame_kernel_ideal : Cert.frame_KernelIdeal := fun m ρ _ => Cert.KernelIdeal.Gen.frame m ρ

/-- The reference is a straight line of array operations: it runs, and writes no argument. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation of the kernel is rewritten for the reading over the extended reals: nothing to preserve. -/
theorem preserves : Cert.preserves_Kernel_KernelIdeal := trivial

/-- From inputs that agree, both programs end with the Hermite rule applied to the input. -/
theorem algebraic : Cert.algebraic_KernelIdeal_ReferenceIdeal := by
  intro m ρ m' ρ' _ hagree
  refine ⟨fun c => Cert.Hermite.result (m ((c.tc : Thread Cert.KernelIdeal.nD Cert.KernelIdeal.τ).loc Cert.KernelIdeal.main_arg0)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v43_eq, Cert.ReferenceIdeal.Stack.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
